-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x65536x4 : Shape := ⟨3, ![64, 65536, 4]⟩
abbrev S64x65536 : Shape := ⟨2, ![64, 65536]⟩
abbrev S_ : Shape := ⟨0, ![]⟩

class Facts : Prop where
  bcast_S_S64x65536x4 : S_.BroadcastsInDim S64x65536x4 (![] : Fin 0 → Fin S64x65536x4.rank)
  reducesTo_S64x65536x4_S_d0_1_2 : S64x65536x4.ReducesTo [0, 1, 2] S_
  h_S_ : 0 < S_.numel
  bcast_S_S64x65536 : S_.BroadcastsInDim S64x65536 (![] : Fin 0 → Fin S64x65536.rank)
  reducesTo_S64x65536_S_d0_1 : S64x65536.ReducesTo [0, 1] S_

variable [Facts]

def fn {F : FTy → Type} [FloatOps F] (main_arg0 : FVec F S64x65536x4 .f32) (main_arg1 : IVec S64x65536 32) (main_arg2 : IVec S64x65536 32) : IVec S_ 1 :=
  let main_v0 : FVec F S64x65536x4 .f32 := Host.absf main_arg0
  let main_cst : FVec F S_ .f32 := constant S_ .f32 0x7F800000#32
  let main_v1 : FVec F S64x65536x4 .f32 := broadcastInDim S64x65536x4 ![] bcast_S_S64x65536x4 main_cst
  let main_v2 : IVec S64x65536x4 1 := cmpf .olt main_v0 main_v1
  let main_c : IVec S_ 1 := constantI S_ 1 1#1
  let main_v3 : IVec S_ 1 := (fun x v => Host.reduce IntOp.andi x v reducesTo_S64x65536x4_S_d0_1_2 h_S_) main_v2 main_c
  let main_c_0 : IVec S_ 32 := constantI S_ 32 0#32
  let main_v4 : IVec S64x65536 32 := broadcastInDim S64x65536 ![] bcast_S_S64x65536 main_c_0
  let main_v5 : IVec S64x65536 1 := cmpi .sge main_arg1 main_v4
  let main_c_1 : IVec S_ 1 := constantI S_ 1 1#1
  let main_v6 : IVec S_ 1 := (fun x v => Host.reduce IntOp.andi x v reducesTo_S64x65536_S_d0_1 h_S_) main_v5 main_c_1
  let main_v7 : IVec S_ 1 := andi main_v3 main_v6
  let main_c_2 : IVec S_ 32 := constantI S_ 32 4#32
  let main_v8 : IVec S64x65536 32 := broadcastInDim S64x65536 ![] bcast_S_S64x65536 main_c_2
  let main_v9 : IVec S64x65536 1 := cmpi .slt main_arg1 main_v8
  let main_c_3 : IVec S_ 1 := constantI S_ 1 1#1
  let main_v10 : IVec S_ 1 := (fun x v => Host.reduce IntOp.andi x v reducesTo_S64x65536_S_d0_1 h_S_) main_v9 main_c_3
  let main_v11 : IVec S_ 1 := andi main_v7 main_v10
  main_v11
-- ==== Kernel.lean ====
abbrev S64x65536x4 : Shape := ⟨3, ![64, 65536, 4]⟩
abbrev S64x65536 : Shape := ⟨2, ![64, 65536]⟩
abbrev S4194304x4 : Shape := ⟨2, ![4194304, 4]⟩
abbrev S4x4194304 : Shape := ⟨2, ![4, 4194304]⟩
abbrev S1x4194304 : Shape := ⟨2, ![1, 4194304]⟩
abbrev S512x128 : Shape := ⟨2, ![512, 128]⟩
abbrev S4x32768 : Shape := ⟨2, ![4, 32768]⟩
abbrev S1x32768 : Shape := ⟨2, ![1, 32768]⟩
abbrev S256x128 : Shape := ⟨2, ![256, 128]⟩
abbrev S32768 : Shape := ⟨1, ![32768]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S64x65536x4, .f32⟩
  | .hbm, ⟨1, _⟩ => ⟨S64x65536, .i32⟩
  | .hbm, ⟨2, _⟩ => ⟨S64x65536, .i32⟩
  | .hbm, ⟨3, _⟩ => ⟨S4194304x4, .f32⟩
  | .hbm, ⟨4, _⟩ => ⟨S4x4194304, .f32⟩
  | .hbm, ⟨5, _⟩ => ⟨S1x4194304, .i32⟩
  | .hbm, ⟨6, _⟩ => ⟨S1x4194304, .i32⟩
  | .hbm, ⟨7, _⟩ => ⟨S512x128, .f32⟩
  | .hbm, ⟨8, _⟩ => ⟨S_, .f32⟩
  | .hbm, ⟨9, _⟩ => ⟨S_, .f32⟩
  | .local _ .vmem, ⟨0, _⟩ => ⟨S4x32768, .f32⟩
  | .local _ .vmem, ⟨1, _⟩ => ⟨S4x32768, .f32⟩
  | .local _ .vmem, ⟨2, _⟩ => ⟨S1x32768, .i32⟩
  | .local _ .vmem, ⟨3, _⟩ => ⟨S1x32768, .i32⟩
  | .local _ .vmem, ⟨4, _⟩ => ⟨S1x32768, .i32⟩
  | .local _ .vmem, ⟨5, _⟩ => ⟨S1x32768, .i32⟩
  | .local _ .vmem, ⟨6, _⟩ => ⟨S256x128, .f32⟩
  | .local _ .vmem, ⟨7, _⟩ => ⟨S256x128, .f32⟩
  | _, _ => ⟨S64x65536x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32768 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S64x65536x4_S4194304x4 : S64x65536x4.ShapeCasts S4194304x4
  transposes_S4194304x4_S4x4194304_1_0 : S4194304x4.Transposes [1, 0] S4x4194304
  shapeCasts_S64x65536_S1x4194304 : S64x65536.ShapeCasts S1x4194304
  inb_S256x128_S256x128_0_0 : ∀ a, (![0, 0] : Fin 2 → Nat) a + S256x128.size a ≤ S256x128.size a
  h_S256x128 : 0 < S256x128.numel
  inb_S4x32768_S4x32768_0_0 : ∀ a, (![0, 0] : Fin 2 → Nat) a + S4x32768.size a ≤ S4x32768.size a
  h_S4x32768 : 0 < S4x32768.numel
  shapeCasts_S4x32768_S4x32768 : S4x32768.ShapeCasts S4x32768
  reduces_S4x32768_S32768 : S4x32768.Reduces [0] S32768
  shapeCasts_S32768_S1x32768 : S32768.ShapeCasts S1x32768
  broadcasts_S1x32768_S4x32768 : S1x32768.Broadcasts S4x32768
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  iota_S4x32768_d0_w32 : S4x32768.Iotas .tc 32 [0]
  natLt_1_32 : 1 < 32
  shapeCasts_S1x32768_S256x128 : S1x32768.ShapeCasts S256x128
  shapeCasts_S256x128_S256x128 : S256x128.ShapeCasts S256x128
  reducesTo_S512x128_S_d0_1 : S512x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x32768.size a ≤ S4x4194304.size a
  hwx0_0 : ∀ i : grid0.Coords, EltTy.bits .f32 = 32 ∨ (Rect.block (s := S4x4194304) S4x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x4194304.size a
  hwx0_1 : ∀ i : grid0.Coords, EltTy.bits .i32 = 32 ∨ (Rect.block (s := S1x4194304) S1x32768.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32768.size a ≤ S1x4194304.size a
  hwx0_2 : ∀ i : grid0.Coords, EltTy.bits .i32 = 32 ∨ (Rect.block (s := S1x4194304) S1x32768.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S512x128.size a
  hwx0_3 : ∀ i : grid0.Coords, EltTy.bits .f32 = 32 ∨ (Rect.block (s := S512x128) S256x128.size (cc0_transform_3 i) (hinb0_3 i)).WholeWords (EltTy.packing .f32)

variable [Facts₀]

abbrev win0_0 : Pipeline.Window sig grid0 :=
  Pipeline.Window.ofSpec (Memref.whole main_v1) S4x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x65536x4 : Shape := ⟨3, ![64, 65536, 4]⟩
abbrev S64x65536 : Shape := ⟨2, ![64, 65536]⟩
abbrev S_ : Shape := ⟨0, ![]⟩
abbrev S64x65536x1 : Shape := ⟨3, ![64, 65536, 1]⟩
abbrev S64x65536x1x1 : Shape := ⟨4, ![64, 65536, 1, 1]⟩
abbrev S1 : Shape := ⟨1, ![1]⟩
abbrev S1x1x1x1 : Shape := ⟨4, ![1, 1, 1, 1]⟩

abbrev nBuf : Space → Nat
  | .hbm => 52
  | .vmem => 0
  | .smem => 0
  | _ => 0

abbrev bufTy : (tb : Table) → Fin (tcTables nBuf tb) → BufTy
  | .hbm, ⟨0, _⟩ => ⟨S64x65536x4, .f32⟩
  | .hbm, ⟨1, _⟩ => ⟨S64x65536, .i32⟩
  | .hbm, ⟨2, _⟩ => ⟨S64x65536, .i32⟩
  | .hbm, ⟨3, _⟩ => ⟨S_, .f32⟩
  | .hbm, ⟨4, _⟩ => ⟨S64x65536, .f32⟩
  | .hbm, ⟨5, _⟩ => ⟨S_, .f32⟩
  | .hbm, ⟨6, _⟩ => ⟨S64x65536, .f32⟩
  | .hbm, ⟨7, _⟩ => ⟨S64x65536, .f32⟩
  | .hbm, ⟨8, _⟩ => ⟨S64x65536x1, .f32⟩
  | .hbm, ⟨9, _⟩ => ⟨S64x65536x4, .f32⟩
  | .hbm, ⟨10, _⟩ => ⟨S64x65536x4, .f32⟩
  | .hbm, ⟨11, _⟩ => ⟨S64x65536x4, .f32⟩
  | .hbm, ⟨12, _⟩ => ⟨S_, .f32⟩
  | .hbm, ⟨13, _⟩ => ⟨S64x65536, .f32⟩
  | .hbm, ⟨14, _⟩ => ⟨S64x65536x1, .f32⟩
  | .hbm, ⟨15, _⟩ => ⟨S64x65536x1, .f32⟩
  | .hbm, ⟨16, _⟩ => ⟨S64x65536x4, .f32⟩
  | .hbm, ⟨17, _⟩ => ⟨S64x65536x4, .f32⟩
  | .hbm, ⟨18, _⟩ => ⟨S64x65536x1, .i32⟩
  | .hbm, ⟨19, _⟩ => ⟨S_, .i32⟩
  | .hbm, ⟨20, _⟩ => ⟨S64x65536x1, .i32⟩
  | .hbm, ⟨21, _⟩ => ⟨S64x65536x1, .i1⟩
  | .hbm, ⟨22, _⟩ => ⟨S_, .i32⟩
  | .hbm, ⟨23, _⟩ => ⟨S64x65536x1, .i32⟩
  | .hbm, ⟨24, _⟩ => ⟨S64x65536x1, .i32⟩
  | .hbm, ⟨25, _⟩ => ⟨S64x65536x1, .i32⟩
  | .hbm, ⟨26, _⟩ => ⟨S64x65536x1x1, .i32⟩
  | .hbm, ⟨27, _⟩ => ⟨S1, .i32⟩
  | .hbm, ⟨28, _⟩ => ⟨S_, .i32⟩
  | .hbm, ⟨29, _⟩ => ⟨S64x65536x1x1, .i32⟩
  | .hbm, ⟨30, _⟩ => ⟨S64x65536x1x1, .i1⟩
  | .hbm, ⟨31, _⟩ => ⟨S1x1x1x1, .i32⟩
  | .hbm, ⟨32, _⟩ => ⟨S64x65536x1x1, .i32⟩
  | .hbm, ⟨33, _⟩ => ⟨S64x65536x1x1, .i1⟩
  | .hbm, ⟨34, _⟩ => ⟨S64x65536x1x1, .i1⟩
  | .hbm, ⟨35, _⟩ => ⟨S_, .i1⟩
  | .hbm, ⟨36, _⟩ => ⟨S64x65536x1, .i1⟩
  | .hbm, ⟨37, _⟩ => ⟨S64x65536x1, .f32⟩
  | .hbm, ⟨38, _⟩ => ⟨S_, .f32⟩
  | .hbm, ⟨39, _⟩ => ⟨S64x65536x1, .f32⟩
  | .hbm, ⟨40, _⟩ => ⟨S64x65536x1, .f32⟩
  | .hbm, ⟨41, _⟩ => ⟨S64x65536, .f32⟩
  | .hbm, ⟨42, _⟩ => ⟨S64x65536, .f32⟩
  | .hbm, ⟨43, _⟩ => ⟨S_, .i32⟩
  | .hbm, ⟨44, _⟩ => ⟨S64x65536, .i32⟩
  | .hbm, ⟨45, _⟩ => ⟨S64x65536, .i1⟩
  | .hbm, ⟨46, _⟩ => ⟨S64x65536, .f32⟩
  | .hbm, ⟨47, _⟩ => ⟨S64x65536, .f32⟩
  | .hbm, ⟨48, _⟩ => ⟨S64x65536, .f32⟩
  | .hbm, ⟨49, _⟩ => ⟨S64x65536, .f32⟩
  | .hbm, ⟨50, _⟩ => ⟨S_, .f32⟩
  | .hbm, ⟨51, _⟩ => ⟨S_, .f32⟩
  | _, _ => ⟨S64x65536x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_c : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst : Ref sig .tc := ⟨.hbm, 50, rfl⟩
abbrev main_v11 : Ref sig .tc := ⟨.hbm, 51, rfl⟩

abbrev nD : Nat := 1
abbrev τ : Topo := Topo.v7x

variable {F : FTy → Type} [FloatOps F]

class Facts₀ : Prop where
  reducesTo_S64x65536x4_S64x65536_d2 : S64x65536x4.ReducesTo [2] S64x65536
  h_S_ : 0 < S_.numel
  bcast_S_S64x65536 : S_.BroadcastsInDim S64x65536 (![] : Fin 0 → Fin S64x65536.rank)
  bcast_S64x65536_S64x65536x1_0_1 : S64x65536.BroadcastsInDim S64x65536x1 (![0, 1] : Fin 2 → Fin S64x65536x1.rank)
  bcast_S64x65536x1_S64x65536x4_0_1_2 : S64x65536x1.BroadcastsInDim S64x65536x4 (![0, 1, 2] : Fin 3 → Fin S64x65536x4.rank)
  bcast_S_S64x65536x1 : S_.BroadcastsInDim S64x65536x1 (![] : Fin 0 → Fin S64x65536x1.rank)
  shapeCasts_S64x65536x1_S64x65536x1x1 : S64x65536x1.ShapeCasts S64x65536x1x1
  bcast_S_S64x65536x1x1 : S_.BroadcastsInDim S64x65536x1x1 (![] : Fin 0 → Fin S64x65536x1x1.rank)
  bcast_S1_S1x1x1x1_3 : S1.BroadcastsInDim S1x1x1x1 (![3] : Fin 1 → Fin S1x1x1x1.rank)
  bcast_S1x1x1x1_S64x65536x1x1_0_1_2_3 : S1x1x1x1.BroadcastsInDim S64x65536x1x1 (![0, 1, 2, 3] : Fin 4 → Fin S64x65536x1x1.rank)
  reducesTo_S64x65536x1x1_S64x65536x1_d3 : S64x65536x1x1.ReducesTo [3] S64x65536x1
  shapeCasts_S64x65536x1_S64x65536 : S64x65536x1.ShapeCasts S64x65536
  reducesTo_S64x65536_S_d0_1 : S64x65536.ReducesTo [0, 1] S_
  gather_S64x65536x4_S64x65536x1x1_S64x65536x1_n_2_01_01_2_3_111_wf : GatherDims.WF S64x65536x4 S64x65536x1x1 S64x65536x1 [] [2] [0, 1] [2] [0, 1] 3 ![1, 1, 1]

variable [Facts₀]

def gather_S64x65536x4_S64x65536x1x1_S64x65536x1_n_2_01_01_2_3_111 : GatherDims S64x65536x4 S64x65536x1x1 S64x65536x1 where
  offsetDims := []
  collapsedSliceDims := [2]
  operandBatchingDims := [0, 1]
  startIndicesBatchingDims := [0, 1]
  startIndexMap := [2]
  indexVectorDim := 3
  sliceSizes := ![1, 1, 1]
  wf := gather_S64x65536x4_S64x65536x1x1_S64x65536x1_n_2_01_01_2_3_111_wf

class Facts : Prop extends Facts₀ where

variable [Facts]
-- ==== Proof.FocalTerm.lean ====
/-
  The weighted cross-entropy of ONE sample, over the extended reals.

  A sample has four logits x₀ … x₃, a label word and a count word. Its log-probabilities are the log-softmax of the
  logits, computed the stable way: with M the largest logit (a fold of max from −∞), the log-probability of class c is
  (x_c − M) − log (∑ₖ exp (x_k − M)). Its weight is [label ≠ 3] + count, both read as reals. Its term is
  −(log-probability of the label's class) · weight. The loss is the sum of the terms over all samples.
-/
import Idealize.ShloMosaic.PureOps.Ideal
import Idealize.ShloMosaic.PureOps.Ideal.Laws

noncomputable section

open scoped BigOperators

namespace Cert.Focal

open Idealize.ShloMosaic

/-- The largest of the four logits: the fold of `max` from the pattern of −∞, as a reduction computes it. -/
def rowMax (x : Fin 4 → EReal) : EReal := (Finset.univ : Finset (Fin 4)).fold max (Ideal.ofBits .f32 0xFF800000#32) x

/-- The sum of the exponentials of the logits shifted by their maximum. -/
def sumExp (x : Fin 4 → EReal) : EReal := ∑ k : Fin 4, Ideal.exp (x k - rowMax x)

/-- The log-probability of class `c`: the log-softmax of the logits at `c`. -/
def logProb (x : Fin 4 → EReal) (c : Fin 4) : EReal := x c - rowMax x - Ideal.log (sumExp x)

/-- The sample's weight: one unless the label is the negative class 3, plus the sample's count. -/
def weight (lab cnt : BitVec 32) : EReal :=
  (((IntOp.cmpi .ne lab 3#32).toNat : ℝ) : EReal) + ((cnt.toInt : ℝ) : EReal)

/-- The class a label word names (for a label in range, its value). -/
def cls (lab : BitVec 32) : Fin 4 := ⟨lab.toNat % 4, Nat.mod_lt _ (by decide)⟩

/-- The sample's term of the loss. -/
def term (x : Fin 4 → EReal) (lab cnt : BitVec 32) : EReal := -(logProb x (cls lab)) * weight lab cnt

/-- A label in its range: the two signed compares `0 ≤ label` and `label < 4` both answer 1. -/
def InRange (lab : BitVec 32) : Prop := IntOp.cmpi .sge lab 0#32 = 1#1 ∧ IntOp.cmpi .slt lab 4#32 = 1#1

end Cert.Focal

end
-- ==== Proof.LabelRange.lean ====
/-
  What the precondition says of the labels: every label is in its range, 0 ≤ label < 4.

  The precondition is the conjunction of three "for all entries" tests, each a reduction by `and` from 1 of an array
  of one-bit answers: every logit is finite, every label is at least 0, every label is below 4 (signed compares
  against broadcast constants). That the conjunction is 1 gives each test is 1, and a reduction by `and` that is 1 met
  only 1s.
-/
import proofs.«418320_j54924041781384_3_alg».proof.Pre_finite_inputs
import proofs.«418320_j54924041781384_3_alg».proof.Proof.FocalTerm
import Idealize.ShloMosaic.PureOps.Ideal
import Idealize.ShloMosaic.Lib.ReduceAll
import Idealize.ShloMosaic.Lib.ValueIdx
import Idealize.ShloMosaic.Lib.Pipeline.Value

noncomputable section

namespace Cert.LabelRange

open Idealize.ShloMosaic Idealize.ShloMosaic.ValueIdx Cert.Pre_finite_inputs Cert.Focal

variable [Cert.Pre_finite_inputs.Facts]

/-- The shape of a scalar has one index. -/
instance subsingleton_scalar_idx : Subsingleton S_.Idx := ⟨fun a b => funext fun d => d.elim0⟩

/-- A scalar broadcast to the labels' shape reads the scalar at every index. -/
theorem bcast_const (c : BitVec 32) (i : S64x65536.Idx) :
    broadcastInDim S64x65536 ![] Facts.bcast_S_S64x65536 (constantI S_ 32 c) i = c := by
  rw [broadcastInDim_apply ![] Facts.bcast_S_S64x65536 (constantI S_ 32 c) i (fun a => a.elim0) (fun a => a.elim0)]
  rfl

/-- Under the precondition every label is in range. -/
theorem labels_inRange (a0 : FVec Ideal S64x65536x4 .f32) (a1 a2 : IVec S64x65536 32)
    (h : Cert.Pre_finite_inputs.fn (F := Ideal) a0 a1 a2 = fun _ => 1#1) (i : S64x65536.Idx) : InRange (a1 i) := by
  have h0 := congrFun h ValueIdx.ix0
  dsimp only [Cert.Pre_finite_inputs.fn] at h0
  -- the conjunction at the one index is the `and` of the three tests' answers
  obtain ⟨h12, hlt⟩ := IntOp.andi_eq_one.1 h0
  obtain ⟨_, hge⟩ := IntOp.andi_eq_one.1 h12
  -- each test is a reduction by `and` over every entry: its answer 1 gives 1 at the entry `i`
  have hge_i := Host.reduce_andi_all _ _ _ _ _ hge i
  have hlt_i := Host.reduce_andi_all _ _ _ _ _ hlt i
  -- an entry of a compare is the compare of the entries, and the broadcast constant's entry is the constant
  have e0 := bcast_const 0#32 i
  have e4 := bcast_const 4#32 i
  refine ⟨?_, ?_⟩
  · have : IntOp.cmpi .sge (a1 i)
        (broadcastInDim S64x65536 ![] Facts.bcast_S_S64x65536 (constantI S_ 32 0#32) i) = 1#1 := hge_i
    rwa [e0] at this
  · have : IntOp.cmpi .slt (a1 i)
        (broadcastInDim S64x65536 ![] Facts.bcast_S_S64x65536 (constantI S_ 32 4#32) i) = 1#1 := hlt_i
    rwa [e4] at this

end Cert.LabelRange

end
-- ==== Proof.KernelBody.lean ====
/-
  What one run of the kernel body computes, at the ideal instance, entry by entry.

  The body loads a tile of 32768 samples — the logits as a [4, 32768] block (class on the rows), the labels and the
  counts as [1, 32768] rows — computes each sample's term of the loss along the lanes, lays the 32768 terms out as a
  [256, 128] tile (sample r·128 + l at row r, lane l) and adds the tile to the accumulator block. At the first point
  of each core's run the accumulator block is first set to zero.
-/
import proofs.«418320_j54924041781384_3_alg».proof.Proof.Gen.KernelIdeal.Frame
import proofs.«418320_j54924041781384_3_alg».proof.Proof.FocalTerm
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

noncomputable section

open scoped BigOperators

namespace Cert.KernelIdeal.Body

open Cert.KernelIdeal Cert.KernelIdeal.Gen Idealize.ShloMosaic Idealize.ShloMosaic.TcCoe Idealize.ShloMosaic.ValueIdx Idealize.SL.Sem Cert.Focal

variable {F : FTy → Type} [FloatOps F]

/-- The lane of the tile that holds the sample laid out at row `r`, lane `l` of the [256, 128] tile. -/
abbrev lane (r : Fin 256) (l : Fin 128) : Fin 32768 := ⟨r.val * 128 + l.val, by have := r.isLt; have := l.isLt; omega⟩

/-- The block the reset stores is zero everywhere. -/
theorem pay1_apply (j : S256x128.Idx) : k0_pay1 (F := Ideal) j = (0 : EReal) := by
  unfold k0_pay1
  exact Ideal.ofBits_zero_f32

/-! ## The layout and reduction operations of the body, read at one entry -/

section Point
variable {α : Type}

/-- The source index of a reduction over the class axis: class `k` on the rows, the lane kept. -/
private theorem lift_lane (h : S4x32768.Reduces [0] S32768) (L : Fin 32768) (k : Fin 4) :
    h.lift (ix1 L) k = ix2 k L :=
  funext fun a => match a with
    | ⟨0, _⟩ => Fin.ext rfl
    | ⟨1, _⟩ => Fin.ext rfl

/-- The maximum over the classes, at a lane: the fold of `max` from −∞ over the four logits of the lane. -/
private theorem max_lane (v : FVec Ideal S4x32768 .f32) (L : Fin 32768) :
    multiReduction (F := Ideal) .maximumf [0] S32768 v 0xFF800000#32 reduces_S4x32768_S32768
        (Or.inl rfl : FTy.f32 = FTy.f32 ∨ FTy.f32 = FTy.bf16) (rfl : (0xFF800000#32 : BitVec 32) = 0xFF800000#32) (ix1 L)
      = rowMax (fun c => v (ix2 c L)) := by
  refine (Ideal.multiReduction_maximumf_single v 0xFF800000#32 reduces_S4x32768_S32768 _ _ (ix1 L)).trans ?_
  unfold rowMax
  refine congrArg (fun f => (Finset.univ : Finset (Fin 4)).fold max (Ideal.ofBits .f32 0xFF800000#32) f) ?_
  funext k
  exact congrArg v (lift_lane reduces_S4x32768_S32768 L k)

/-- The sum over the classes, at a lane. -/
private theorem sum_lane (v : FVec Ideal S4x32768 .f32) (L : Fin 32768) :
    multiReduction (F := Ideal) .add [0] S32768 v 0x00000000#32 reduces_S4x32768_S32768
        (Or.inl rfl : FTy.f32 = FTy.f32 ∨ FTy.f32 = FTy.bf16) (rfl : (0x00000000#32 : BitVec 32) = 0x00000000#32) (ix1 L)
      = ∑ c : Fin 4, v (ix2 c L) := by
  refine (Ideal.multiReduction_add_single v 0x00000000#32 reduces_S4x32768_S32768 _ _ (ix1 L)).trans ?_
  exact Finset.sum_congr rfl fun k _ => congrArg v (lift_lane reduces_S4x32768_S32768 L k)

/-- A row of 32768 lanes laid out as a [256, 128] tile reads, at (r, l), lane r·128 + l. -/
private theorem tile_apply (v : S1x32768.Idx → α) (r : Fin 256) (l : Fin 128) :
    shapeCast S256x128 v shapeCasts_S1x32768_S256x128 (ix2 r l) = v (ix2 (0 : Fin 1) (lane r l)) :=
  shapeCast_apply v shapeCasts_S1x32768_S256x128 (ix2 r l) (ix2 (0 : Fin 1) (lane r l)) (by
    rw [Shape.rowMajor_val_two, Shape.rowMajor_val_two]
    show 0 * 32768 + (r.val * 128 + l.val) = r.val * 128 + l.val
    omega)

/-- A per-lane vector seen as a one-row block. -/
private theorem row_apply (v : S32768.Idx → α) (L : Fin 32768) :
    shapeCast S1x32768 v shapeCasts_S32768_S1x32768 (ix2 (0 : Fin 1) L) = v (ix1 L) :=
  shapeCast_a_1a_apply v shapeCasts_S32768_S1x32768 0 L

/-- A one-row block repeated over the four classes. -/
private theorem rows_apply (v : S1x32768.Idx → α) (c : Fin 4) (L : Fin 32768) :
    broadcastTo S4x32768 v broadcasts_S1x32768_S4x32768 (ix2 c L) = v (ix2 (0 : Fin 1) L) :=
  broadcastTo_1b_ab_apply v broadcasts_S1x32768_S4x32768 c L

/-- The class number of a row. -/
private theorem class_apply (c : Fin 4) (L : Fin 32768) :
    iota .tc S4x32768 32 [0] iota_S4x32768_d0_w32 (ix2 c L) = BitVec.ofNat 32 c.val :=
  iota_single_apply .tc S4x32768 32 0 iota_S4x32768_d0_w32 (ix2 c L)

end Point

/-! ## The pointwise operations of the body, read at one entry -/

section Pointwise
variable {s : Shape} {φ : FTy} {w : Nat}
/-- At the ideal values the exponential, the logarithm, a compare of words and a signed conversion act entry by entry. -/
private theorem exp_apply (a : FVec Ideal s φ) (i : s.Idx) : exp a i = Ideal.exp (a i) := rfl
private theorem log_apply (a : FVec Ideal s φ) (i : s.Idx) : log a i = Ideal.log (a i) := rfl
private theorem cmpi_apply (p : CmpIPredicate) (a b : IVec s w) (i : s.Idx) : cmpi p a b i = IntOp.cmpi p (a i) (b i) := rfl
private theorem sitofp_ideal (a : IVec s w) (i : s.Idx) : (sitofp φ a : FVec Ideal s φ) i = (((a i).toInt : ℝ) : EReal) := rfl
end Pointwise

/-! ## The algebra at one sample -/

/-- A label in range is one of the four class numbers. -/
private theorem label_cases (lab : BitVec 32) (h : InRange lab) : ∃ n : Fin 4, lab = BitVec.ofNat 32 n.val := by
  obtain ⟨h0, h4⟩ := h
  change BitVec.ofBool ((0#32).sle lab) = 1#1 at h0
  change BitVec.ofBool (lab.slt 4#32) = 1#1 at h4
  have h0' : (0#32).sle lab = true := by
    cases hb : (0#32).sle lab
    · rw [hb] at h0; exact absurd h0 (by decide : ¬BitVec.ofBool false = 1#1)
    · rfl
  have h4' : lab.slt 4#32 = true := by
    cases hb : lab.slt 4#32
    · rw [hb] at h4; exact absurd h4 (by decide : ¬BitVec.ofBool false = 1#1)
    · rfl
  have hlt : lab.toNat < 4 := by
    rw [BitVec.sle_iff_toInt_le] at h0'
    rw [BitVec.slt_iff_toInt_lt] at h4'
    have e0 : (0#32).toInt = 0 := by decide
    have e4 : (4#32).toInt = 4 := by decide
    rw [e0] at h0'
    rw [e4] at h4'
    rw [BitVec.toInt_eq_toNat_cond] at h0' h4'
    have := lab.isLt
    split at h0' <;> split at h4' <;> omega
  exact ⟨⟨lab.toNat, hlt⟩, by simp⟩

/-- A one-bit word widened to 32 bits and read signed is the bit. -/
private theorem bit_toInt (b : BitVec 1) : (b.setWidth 32).toInt = (b.toNat : ℤ) := by
  by_cases hb : b = 1#1
  · subst hb; decide
  · have := eq_zero_of_ne_one hb; subst this; decide

/-- The class test of row `c` against the label of class `n`, widened and read signed: one at the label's class, zero elsewhere. -/
private theorem hot_table : ∀ c n : Fin 4,
    ((IntOp.cmpi .eq (BitVec.ofNat 32 c.val) (BitVec.ofNat 32 n.val)).setWidth 32).toInt = if c = n then 1 else 0 := by
  decide

/-- The class that the word of class number `n` names is `n`. -/
private theorem cls_table : ∀ n : Fin 4, cls (BitVec.ofNat 32 n.val) = n := by decide

/-- THE ALGEBRA AT ONE SAMPLE. The one-hot sum of the log-probabilities picks the label's class; zero minus it is its
    negative; the widened compare bit read signed is the bit. -/
private theorem term_point (x : Fin 4 → EReal) (lab cnt : BitVec 32) (h : InRange lab) :
    (Ideal.ofBits .f32 0x00000000#32
        - ∑ c : Fin 4, (x c - rowMax x - Ideal.log (∑ k : Fin 4, Ideal.exp (x k - rowMax x)))
            * ((((IntOp.cmpi .eq (BitVec.ofNat 32 c.val) lab).setWidth 32).toInt : ℝ) : EReal))
      * (((((IntOp.cmpi .ne lab 3#32).setWidth 32).toInt : ℝ) : EReal) + ((cnt.toInt : ℝ) : EReal))
    = term x lab cnt := by
  obtain ⟨n, rfl⟩ := label_cases lab h
  unfold term weight logProb sumExp
  rw [Ideal.ofBits_zero_f32, zero_sub, bit_toInt, Int.cast_natCast, cls_table]
  congr 2
  simp only [hot_table]
  rw [Finset.sum_eq_single n]
  · simp
  · intro c _ hc; simp [hc]
  · intro hn; exact absurd (Finset.mem_univ n) hn

/-- THE BODY'S ARITHMETIC AT AN ENTRY. Entry (r, l) of the block the body stores is the accumulator's entry plus the
    term of the sample in lane r·128 + l, when that sample's label is in range. -/
theorem pay2_apply (x : Vec Ideal S4x32768 .f32) (lab cnt : Vec Ideal S1x32768 .i32) (acc : Vec Ideal S256x128 .f32)
    (r : Fin 256) (l : Fin 128) (h : InRange (lab (ix2 (0 : Fin 1) (lane r l)))) :
    k0_pay2 (F := Ideal) x lab cnt acc (ix2 r l)
      = acc (ix2 r l) + term (fun c => x (ix2 c (lane r l))) (lab (ix2 (0 : Fin 1) (lane r l))) (cnt (ix2 (0 : Fin 1) (lane r l))) := by
  unfold k0_pay2
  simp -index only [addf_apply, mulf_apply, subf_apply, exp_apply, log_apply, cmpi_apply, sitofp_ideal, extui_apply, broadcast_apply,
    shapeCast_self, tile_apply, row_apply, rows_apply, class_apply, max_lane, sum_lane]
  exact congrArg (acc (ix2 r l) + ·)
    (term_point (fun c => x (ix2 c (lane r l))) (lab (ix2 (0 : Fin 1) (lane r l))) (cnt (ix2 (0 : Fin 1) (lane r l))) h)

/-! ## What the found pieces leave in the output's staging buffer -/

/-- The origin of a rank-2 block, as the constant-zero offset. -/
private theorem origin_eq : (![0, 0] : Fin 2 → Nat) = fun _ => 0 := funext fun a => by fin_cases a <;> rfl

/-- At a first point (the reset taken) the output's staging buffer ends at the body's arithmetic over the zero block. -/
theorem out_A (c : Dev nD) (i : grid0.Coords) (arg2 : Memref sig .tc .vmem S4x32768 .f32) (harg2 : arg2.IsWhole) (arg3 : Memref sig .tc .vmem S1x32768 .i32) (harg3 : arg3.IsWhole) (arg4 : Memref sig .tc .vmem S1x32768 .i32) (harg4 : arg4.IsWhole) (arg5 : Memref sig .tc .vmem S256x128 .f32) (harg5 : arg5.IsWhole) (hc0 : cond0_0 i)
    (x0 : Vec F S4x32768 .f32) (x1 : Vec F S1x32768 .i32) (x2 : Vec F S1x32768 .i32) :
    out0_A_3 c i arg2 harg2 arg3 harg3 arg4 harg4 arg5 harg5 hc0 x0 x1 x2 = k0_pay2 x0 x1 x2 (k0_pay1 (F := F)) := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S256x128) origin_eq, View.readCov_unit_zero (S := S256x128) _ origin_eq]
  simp only [View.readAt_eq_ld, harg2.read_unread, harg3.read_unread, harg4.read_unread, harg5.read_unread,
    View.ld_unit_zero (S := S4x32768) origin_eq, View.ld_unit_zero (S := S1x32768) origin_eq, View.ld_unit_zero (S := S256x128) origin_eq]

/-- At any other point it ends at the body's arithmetic over what the buffer held. -/
theorem out_B (c : Dev nD) (i : grid0.Coords) (arg2 : Memref sig .tc .vmem S4x32768 .f32) (harg2 : arg2.IsWhole) (arg3 : Memref sig .tc .vmem S1x32768 .i32) (harg3 : arg3.IsWhole) (arg4 : Memref sig .tc .vmem S1x32768 .i32) (harg4 : arg4.IsWhole) (arg5 : Memref sig .tc .vmem S256x128 .f32) (harg5 : arg5.IsWhole) (hc0 : ¬cond0_0 i)
    (x0 : Vec F S4x32768 .f32) (x1 : Vec F S1x32768 .i32) (x2 : Vec F S1x32768 .i32) (xo3 : Vec F S256x128 .f32) :
    out0_B_3 c i arg2 harg2 arg3 harg3 arg4 harg4 arg5 harg5 hc0 x0 x1 x2 xo3 = k0_pay2 x0 x1 x2 xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero origin_eq]
  simp only [View.readAt_eq_ld, harg2.read_unread, harg3.read_unread, harg4.read_unread, harg5.read_unread,
    View.ld_unit_zero (S := S4x32768) origin_eq, View.ld_unit_zero (S := S1x32768) origin_eq, View.ld_unit_zero (S := S256x128) origin_eq]

end Cert.KernelIdeal.Body

end
-- ==== Proof.SumLayout.lean ====
/-
  Two ways of adding up 4194304 terms of an additive commutative monoid.

  The terms are numbered 0 … 4194303. Read as 64 rows of 65536, term b·65536 + n is entry n of row b. Read as the
  kernel tiles them, the terms fall into 128 tiles of 32768, tile number c·64 + i belonging to core c ∈ {0, 1} at its
  step i < 64, and inside a tile term r·128 + l sits at row r < 256, lane l < 128 of a [256, 128] block; core c adds
  its 64 tiles into rows c·256 … c·256 + 255 of a [512, 128] array, so entry (R, l) of that array collects, over the
  steps i, the terms ((R / 256)·64 + i)·32768 + (R % 256)·128 + l. Either way every term is counted exactly once.
-/
import Mathlib.Algebra.BigOperators.Fin
import Mathlib.Algebra.BigOperators.Group.Finset.Basic
import Mathlib.Data.Fintype.BigOperators
import Mathlib.Logic.Equiv.Fin.Basic
import Mathlib.Tactic.NormNum.Basic

open scoped BigOperators

namespace Cert.SumLayout

/-- The numbers below a·b, each written once as t·b + y with t < a and y < b: summing over t and then over y is
    summing over all of them. The pair (t, y) ↦ y + b·t is a bijection from Fin a × Fin b onto Fin (a·b). -/
theorem sum_fin_mul {M : Type*} [AddCommMonoid M] (a b : ℕ) (g : ℕ → M) :
    ∑ t : Fin a, ∑ y : Fin b, g (t.val * b + y.val) = ∑ j ∈ Finset.range (a * b), g j := by
  rw [Finset.sum_range, ← Fintype.sum_prod_type' (fun (t : Fin a) (y : Fin b) => g (t.val * b + y.val))]
  refine Fintype.sum_equiv finProdFinEquiv _ _ ?_
  rintro ⟨t, y⟩
  show g (t.val * b + y.val) = g (y.val + b * t.val)
  rw [Nat.add_comm, Nat.mul_comm]

/-- Four digits: the numbers below a·b·c·d, each written once as ((x·b + y)·c + z)·d + w. Three uses of the
    two-digit splitting, peeling the last digit each time. -/
theorem sum_fin_mul4 {M : Type*} [AddCommMonoid M] (a b c d : ℕ) (g : ℕ → M) :
    ∑ x : Fin a, ∑ y : Fin b, ∑ z : Fin c, ∑ w : Fin d, g (((x.val * b + y.val) * c + z.val) * d + w.val)
      = ∑ j ∈ Finset.range (a * b * c * d), g j :=
  calc ∑ x : Fin a, ∑ y : Fin b, ∑ z : Fin c, ∑ w : Fin d, g (((x.val * b + y.val) * c + z.val) * d + w.val)
      = ∑ s ∈ Finset.range (a * b), ∑ z : Fin c, ∑ w : Fin d, g ((s * c + z.val) * d + w.val) :=
        sum_fin_mul a b (fun s => ∑ z : Fin c, ∑ w : Fin d, g ((s * c + z.val) * d + w.val))
    _ = ∑ s : Fin (a * b), ∑ z : Fin c, ∑ w : Fin d, g ((s.val * c + z.val) * d + w.val) :=
        Finset.sum_range (fun s => ∑ z : Fin c, ∑ w : Fin d, g ((s * c + z.val) * d + w.val))
    _ = ∑ t ∈ Finset.range (a * b * c), ∑ w : Fin d, g (t * d + w.val) :=
        sum_fin_mul (a * b) c (fun t => ∑ w : Fin d, g (t * d + w.val))
    _ = ∑ t : Fin (a * b * c), ∑ w : Fin d, g (t.val * d + w.val) :=
        Finset.sum_range (fun t => ∑ w : Fin d, g (t * d + w.val))
    _ = ∑ j ∈ Finset.range (a * b * c * d), g j := sum_fin_mul (a * b * c) d g

/-- Row by row: the sum over 64 rows of the sums over each row's 65536 entries is the sum of all the terms. -/
theorem sum_rows {M : Type*} [AddCommMonoid M] (f : ℕ → M) :
    ∑ b : Fin 64, ∑ n : Fin 65536, f (b.val * 65536 + n.val) = ∑ j ∈ Finset.range 4194304, f j := by
  have h := sum_fin_mul 64 65536 f
  rwa [show (64 : ℕ) * 65536 = 4194304 from by norm_num] at h

/-- Tile by tile: the sum over the [512, 128] array's entries of the sums over the 64 steps is the sum of all the
    terms. -/
theorem sum_tiles {M : Type*} [AddCommMonoid M] (f : ℕ → M) :
    ∑ R : Fin 512, ∑ l : Fin 128, ∑ i : Fin 64, f (((R.val / 256) * 64 + i.val) * 32768 + (R.val % 256) * 128 + l.val)
      = ∑ j ∈ Finset.range 4194304, f j := by
  -- the array row R is c·256 + r with c < 2 the core and r < 256 the row of the block
  have hR : ∑ R : Fin 512, ∑ l : Fin 128, ∑ i : Fin 64,
        f (((R.val / 256) * 64 + i.val) * 32768 + (R.val % 256) * 128 + l.val)
      = ∑ c : Fin 2, ∑ r : Fin 256, ∑ l : Fin 128, ∑ i : Fin 64,
        f ((((c.val * 256 + r.val) / 256) * 64 + i.val) * 32768 + ((c.val * 256 + r.val) % 256) * 128 + l.val) :=
    calc ∑ R : Fin 512, ∑ l : Fin 128, ∑ i : Fin 64,
          f (((R.val / 256) * 64 + i.val) * 32768 + (R.val % 256) * 128 + l.val)
        = ∑ R ∈ Finset.range (2 * 256), ∑ l : Fin 128, ∑ i : Fin 64,
          f (((R / 256) * 64 + i.val) * 32768 + (R % 256) * 128 + l.val) :=
          (Finset.sum_range (n := 2 * 256) (fun R => ∑ l : Fin 128, ∑ i : Fin 64,
            f (((R / 256) * 64 + i.val) * 32768 + (R % 256) * 128 + l.val))).symm
      _ = _ :=
          (sum_fin_mul 2 256 (fun R => ∑ l : Fin 128, ∑ i : Fin 64,
            f (((R / 256) * 64 + i.val) * 32768 + (R % 256) * 128 + l.val))).symm
  -- the quotient and remainder by 256 give c and r back, and 32768 = 256·128
  have hidx : ∀ (c : Fin 2) (r : Fin 256) (l : Fin 128) (i : Fin 64),
      (((c.val * 256 + r.val) / 256) * 64 + i.val) * 32768 + ((c.val * 256 + r.val) % 256) * 128 + l.val
        = ((c.val * 64 + i.val) * 256 + r.val) * 128 + l.val := by
    intro c r l i
    have hr := r.isLt
    omega
  -- inside a core, sum over the steps first instead of last
  have hcomm : ∀ c : Fin 2,
      ∑ r : Fin 256, ∑ l : Fin 128, ∑ i : Fin 64, f (((c.val * 64 + i.val) * 256 + r.val) * 128 + l.val)
        = ∑ i : Fin 64, ∑ r : Fin 256, ∑ l : Fin 128, f (((c.val * 64 + i.val) * 256 + r.val) * 128 + l.val) :=
    fun c => (Finset.sum_congr rfl fun r _ => Finset.sum_comm).trans Finset.sum_comm
  -- core, step, row, lane are the four digits of the term's number, and 2·64·256·128 = 4194304
  have h4 := sum_fin_mul4 2 64 256 128 f
  rw [show (2 : ℕ) * 64 * 256 * 128 = 4194304 from by norm_num] at h4
  rw [hR]
  simp only [hidx]
  rw [Finset.sum_congr rfl fun c _ => hcomm c, h4]

end Cert.SumLayout
-- ==== Proof.KernelSum.lean ====
/-
  What the kernel's program computes, at the ideal instance: the sum of all samples' terms.

  The host lines before the region lay the logits out as a [4, 4194304] array (class on the rows, sample s = b·65536 + n
  on the columns) and the labels and counts as [1, 4194304] rows. The grid has 128 points; point t = c·64 + i is step i
  of core c and stages columns t·32768 … t·32768 + 32767. The output block of core c (rows c·256 … c·256 + 255 of a
  [512, 128] array) is set to zero at the core's first step, gains at every step the [256, 128] tile of the step's
  32768 terms (term q at row q / 128, lane q % 128), and is written back after the core's last step. So entry (R, l) of
  the array ends at the sum over the 64 steps i of the terms of samples ((R / 256)·64 + i)·32768 + (R % 256)·128 + l;
  the host line after the region adds up all the array's entries from zero.
-/
import proofs.«418320_j54924041781384_3_alg».proof.Proof.Gen.KernelIdeal.Frame
import proofs.«418320_j54924041781384_3_alg».proof.Proof.FocalTerm
import proofs.«418320_j54924041781384_3_alg».proof.Proof.KernelBody
import proofs.«418320_j54924041781384_3_alg».proof.Proof.SumLayout
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.Tactic

set_option maxRecDepth 16384

noncomputable section

open scoped BigOperators

namespace Cert.KernelIdeal.Total

open Cert.KernelIdeal Cert.KernelIdeal.Gen Cert.KernelIdeal.Body Idealize.ShloMosaic Idealize.ShloMosaic.TcCoe
open Idealize.ShloMosaic.ValueIdx Idealize.SL.Sem Cert.Focal
open Idealize.ShloMosaic.Pipeline (Dat)

variable (m : (ℓ : Loc nD τ sig) → Buf (Elt Ideal) ℓ) (ρ : Dev nD → PrngReg)

/-! ## The arguments, sample by sample -/

/-- The three argument arrays at their literal types. -/
abbrev logits (c : Dev nD) : FVec Ideal S64x65536x4 .f32 := m ((c : Thread nD τ).loc main_arg0)
abbrev labels (c : Dev nD) : IVec S64x65536 32 := m ((c : Thread nD τ).loc main_arg1)
abbrev counts (c : Dev nD) : IVec S64x65536 32 := m ((c : Thread nD τ).loc main_arg2)

/-- Sample `s`'s place in the [64, 65536] arrays: row s / 65536, column s % 65536. -/
abbrev place (s : ℕ) : S64x65536.Idx := ix2 (⟨s / 65536 % 64, Nat.mod_lt _ (by decide)⟩ : Fin 64) (⟨s % 65536, Nat.mod_lt _ (by decide)⟩ : Fin 65536)

/-- Sample `s`'s four logits. -/
def logitsOf (c : Dev nD) (s : ℕ) (k : Fin 4) : EReal :=
  logits m c (ix3 (⟨s / 65536 % 64, Nat.mod_lt _ (by decide)⟩ : Fin 64) (⟨s % 65536, Nat.mod_lt _ (by decide)⟩ : Fin 65536) k)

/-- Sample `s`'s term of the loss. -/
def termOf (c : Dev nD) (s : ℕ) : EReal := term (logitsOf m c s) (labels m c (place s)) (counts m c (place s))

/-! ## The arrays the region finds -/

/-- The logits as the region finds them: the argument reshaped to [4194304, 4] and transposed. -/
theorem found_logits (c : Dev nD) : (V m c main_v1 : S4x4194304.Idx → EReal)
    = transpose S4x4194304 [1, 0] (shapeCast S4194304x4 (logits m c) shapeCasts_S64x65536x4_S4194304x4) transposes_S4194304x4_S4x4194304_1_0 := by
  show StableHlo.after hostOps0 (fun b => m (c, b)) (Proc.devRef .tc main_v1) = _
  after_results
  rfl

/-- The labels as the region finds them: the argument as one row. -/
theorem found_labels (c : Dev nD) : (V m c main_v2 : S1x4194304.Idx → BitVec 32)
    = shapeCast S1x4194304 (labels m c) shapeCasts_S64x65536_S1x4194304 := by
  show StableHlo.after hostOps0 (fun b => m (c, b)) (Proc.devRef .tc main_v2) = _
  after_results
  rfl

/-- The counts as the region finds them: the argument as one row. -/
theorem found_counts (c : Dev nD) : (V m c main_v3 : S1x4194304.Idx → BitVec 32)
    = shapeCast S1x4194304 (counts m c) shapeCasts_S64x65536_S1x4194304 := by
  show StableHlo.after hostOps0 (fun b => m (c, b)) (Proc.devRef .tc main_v3) = _
  after_results
  rfl

/-- The found logits at class `k`, sample `s`: the argument at sample `s`'s place, class `k`. -/
theorem found_logits_apply (c : Dev nD) (k : Fin 4) (s : Fin 4194304) :
    (V m c main_v1 : S4x4194304.Idx → EReal) (ix2 k s) = logitsOf m c s.val k := by
  have hs : s.val < 4194304 := s.isLt
  rw [found_logits,
    transpose_apply [1, 0] _ transposes_S4194304x4_S4x4194304_1_0 (ix2 k s) (ix2 s k)
      (fun b => by match b with | ⟨0, _⟩ => rfl | ⟨1, _⟩ => rfl),
    shapeCast_apply _ shapeCasts_S64x65536x4_S4194304x4 (ix2 s k)
      (ix3 (⟨s.val / 65536 % 64, Nat.mod_lt _ (by decide)⟩ : Fin 64) (⟨s.val % 65536, Nat.mod_lt _ (by decide)⟩ : Fin 65536) k)
      (by rw [Shape.rowMajor_val_three, Shape.rowMajor_val_two]
          show ((s.val / 65536 % 64) * 65536 + s.val % 65536) * 4 + k.val = s.val * 4 + k.val
          omega)]
  rfl

/-- The found labels at sample `s`. -/
theorem found_labels_apply (c : Dev nD) (s : Fin 4194304) :
    (V m c main_v2 : S1x4194304.Idx → BitVec 32) (ix2 (0 : Fin 1) s) = labels m c (place s.val) := by
  have hs : s.val < 4194304 := s.isLt
  rw [found_labels,
    shapeCast_apply _ shapeCasts_S64x65536_S1x4194304 (ix2 (0 : Fin 1) s) (place s.val)
      (by rw [Shape.rowMajor_val_two, Shape.rowMajor_val_two]
          show (s.val / 65536 % 64) * 65536 + s.val % 65536 = 0 * 4194304 + s.val
          omega)]

/-- The found counts at sample `s`. -/
theorem found_counts_apply (c : Dev nD) (s : Fin 4194304) :
    (V m c main_v3 : S1x4194304.Idx → BitVec 32) (ix2 (0 : Fin 1) s) = counts m c (place s.val) := by
  have hs : s.val < 4194304 := s.isLt
  rw [found_counts,
    shapeCast_apply _ shapeCasts_S64x65536_S1x4194304 (ix2 (0 : Fin 1) s) (place s.val)
      (by rw [Shape.rowMajor_val_two, Shape.rowMajor_val_two]
          show (s.val / 65536 % 64) * 65536 + s.val % 65536 = 0 * 4194304 + s.val
          omega)]

/-! ## The blocks at a point -/

/-- The printed index maps, decided over the grid: the three inputs' blocks are column block `t`, the output's is row
    block `t / 64`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = t.val / 64 ∧ win0_3.index t (1 : Fin 2) = 0 :=
  (by decide +kernel : ∀ t : Fin grid0.N, _)

/-- The three input blocks at point `t`, at their literal types. -/
abbrev xblk (c : Dev nD) (t : Fin cfg0.N) : Vec Ideal S4x32768 .f32 := iblk m c 0 t
abbrev lblk (c : Dev nD) (t : Fin cfg0.N) : Vec Ideal S1x32768 .i32 := iblk m c 1 t
abbrev cblk (c : Dev nD) (t : Fin cfg0.N) : Vec Ideal S1x32768 .i32 := iblk m c 2 t

/-- Lane `q` of the logits block at point `t` is sample t·32768 + q. -/
theorem xblk_apply (c : Dev nD) (t : Fin cfg0.N) (k : Fin 4) (q : Fin 32768) :
    xblk m c t (ix2 k q) = logitsOf m c (t.val * 32768 + q.val) k := by
  have hN : t.val < 128 := lt_of_lt_of_eq t.isLt (show cfg0.N = 128 from N_0)
  have hq : q.val < 32768 := q.isLt
  obtain ⟨e0, e1, -⟩ := idx_facts t
  show V m c main_v1 (((cfg0.win 0).blk t).view.emb (ix2 k q)) = _
  have e : ((cfg0.win 0).blk t).view.emb (ix2 k q) = ix2 k (⟨t.val * 32768 + q.val, by omega⟩ : Fin 4194304) := by
    funext a; apply Fin.ext
    match a with
    | ⟨0, _⟩ => show win0_0.index t (0 : Fin 2) * 4 + 1 * k.val = k.val; omega
    | ⟨1, _⟩ => show win0_0.index t (1 : Fin 2) * 32768 + 1 * q.val = t.val * 32768 + q.val; omega
  rw [e]
  exact found_logits_apply m c k _

/-- Lane `q` of the labels block at point `t`. -/
theorem lblk_apply (c : Dev nD) (t : Fin cfg0.N) (q : Fin 32768) :
    lblk m c t (ix2 (0 : Fin 1) q) = labels m c (place (t.val * 32768 + q.val)) := by
  have hN : t.val < 128 := lt_of_lt_of_eq t.isLt (show cfg0.N = 128 from N_0)
  have hq : q.val < 32768 := q.isLt
  obtain ⟨-, -, e0, e1, -⟩ := idx_facts t
  show V m c main_v2 (((cfg0.win 1).blk t).view.emb (ix2 (0 : Fin 1) q)) = _
  have e : ((cfg0.win 1).blk t).view.emb (ix2 (0 : Fin 1) q) = ix2 (0 : Fin 1) (⟨t.val * 32768 + q.val, by omega⟩ : Fin 4194304) := by
    funext a; apply Fin.ext
    match a with
    | ⟨0, _⟩ => show win0_1.index t (0 : Fin 2) * 1 + 1 * 0 = 0; omega
    | ⟨1, _⟩ => show win0_1.index t (1 : Fin 2) * 32768 + 1 * q.val = t.val * 32768 + q.val; omega
  rw [e]
  exact found_labels_apply m c _

/-- Lane `q` of the counts block at point `t`. -/
theorem cblk_apply (c : Dev nD) (t : Fin cfg0.N) (q : Fin 32768) :
    cblk m c t (ix2 (0 : Fin 1) q) = counts m c (place (t.val * 32768 + q.val)) := by
  have hN : t.val < 128 := lt_of_lt_of_eq t.isLt (show cfg0.N = 128 from N_0)
  have hq : q.val < 32768 := q.isLt
  obtain ⟨-, -, -, -, e0, e1, -⟩ := idx_facts t
  show V m c main_v3 (((cfg0.win 2).blk t).view.emb (ix2 (0 : Fin 1) q)) = _
  have e : ((cfg0.win 2).blk t).view.emb (ix2 (0 : Fin 1) q) = ix2 (0 : Fin 1) (⟨t.val * 32768 + q.val, by omega⟩ : Fin 4194304) := by
    funext a; apply Fin.ext
    match a with
    | ⟨0, _⟩ => show win0_2.index t (0 : Fin 2) * 1 + 1 * 0 = 0; omega
    | ⟨1, _⟩ => show win0_2.index t (1 : Fin 2) * 32768 + 1 * q.val = t.val * 32768 + q.val; omega
  rw [e]
  exact found_counts_apply m c _

/-- The term the body computes in lane r·128 + l at point `t` is the term of sample t·32768 + r·128 + l. -/
theorem point_term (c : Dev nD) (t : Fin cfg0.N) (r : Fin 256) (l : Fin 128) :
    term (fun k => xblk m c t (ix2 k (lane r l))) (lblk m c t (ix2 (0 : Fin 1) (lane r l))) (cblk m c t (ix2 (0 : Fin 1) (lane r l)))
      = termOf m c (t.val * 32768 + (r.val * 128 + l.val)) := by
  unfold termOf
  rw [lblk_apply, cblk_apply]
  congr 1
  funext k
  exact xblk_apply m c t k (lane r l)

/-! ## The accumulator, point by point -/

/-- THE RUNNING SUM. After point `n` (step n % 64 of core n / 64) entry (r, l) of the output's staging block holds the
    terms of the core's steps 0 … n % 64 at that entry, added up: the first step starts from the zero block, every
    later one adds its tile to what the step before left. By induction on the point. -/
theorem acc_apply (hL : ∀ (c : Dev nD) (i : S64x65536.Idx), InRange (labels m c i)) (c : Dev nD) :
    ∀ (n : ℕ) (hn : n < cfg0.N) (r : Fin 256) (l : Fin 128),
    (outsAt0 m c n hn : S256x128.Idx → EReal) (ix2 r l)
      = ∑ i ∈ Finset.range (n % 64 + 1), termOf m c ((n / 64 * 64 + i) * 32768 + (r.val * 128 + l.val))
  | 0, hn, r, l => by
    rw [outsAt0_A m c ⟨0, hn⟩ rfl, out_A]
    refine (pay2_apply (xblk m c ⟨0, hn⟩) (lblk m c ⟨0, hn⟩) (cblk m c ⟨0, hn⟩) (k0_pay1 (F := Ideal)) r l ?_).trans ?_
    · rw [lblk_apply]; exact hL c _
    · rw [pay1_apply, zero_add, point_term]
      simp only [Nat.zero_mod, Nat.zero_div, Nat.zero_mul, Nat.zero_add, Finset.sum_range_one]
  | n + 1, hn, r, l => by
    have hN : n + 1 < 128 := lt_of_lt_of_eq hn (show cfg0.N = 128 from N_0)
    by_cases h0 : (n + 1) % 64 = 0
    · rw [outsAt0_A m c ⟨n + 1, hn⟩ h0, out_A]
      refine (pay2_apply (xblk m c ⟨n + 1, hn⟩) (lblk m c ⟨n + 1, hn⟩) (cblk m c ⟨n + 1, hn⟩) (k0_pay1 (F := Ideal)) r l ?_).trans ?_
      · rw [lblk_apply]; exact hL c _
      · rw [pay1_apply, zero_add, point_term, h0, Finset.sum_range_one,
          show (n + 1) / 64 * 64 + 0 = n + 1 by omega]
    · rw [outsAt0_B m c ⟨n + 1, hn⟩ h0, out_B]
      refine (pay2_apply (xblk m c ⟨n + 1, hn⟩) (lblk m c ⟨n + 1, hn⟩) (cblk m c ⟨n + 1, hn⟩) _ r l ?_).trans ?_
      · rw [lblk_apply]; exact hL c _
      · rw [point_term]
        show (outsAt0 m c n _ : S256x128.Idx → EReal) (ix2 r l) + _ = _
        rw [acc_apply hL c n _ r l,
          show (n + 1) % 64 = n % 64 + 1 by omega, show (n + 1) / 64 = n / 64 by omega,
          Finset.sum_range_succ _ (n % 64 + 1),
          show n / 64 * 64 + (n % 64 + 1) = n + 1 by omega]

/-! ## The array the region leaves -/

/-- What the [512, 128] array ends holding: at (R, l) the 64 steps' terms of core R / 256 at row R % 256, lane l. -/
def tileSums (c : Dev nD) : FVec Ideal S512x128 .f32 := fun j =>
  ∑ i ∈ Finset.range 64, termOf m c (((j 0).val / 256 * 64 + i) * 32768 + ((j 0).val % 256 * 128 + (j 1).val))

/-- The same as contents of the array's buffer. -/
abbrev tileBuf (c : Dev nD) : Buf (Elt Ideal) ((c : Thread nD τ).loc main_v4) := tileSums m c

/-- The one write-back of a core, after its last step, writes the core's 256 rows of `tileSums`. -/
theorem flushed_eq (hL : ∀ (c : Dev nD) (i : S64x65536.Idx), InRange (labels m c i)) (c : Dev nD) (t : Fin cfg0.N)
    (hf : (cfg0.win 3).flush t = true) :
    (dats m 0 c).flushed 3 t = ((cfg0.win 3).blk t).view.read (Elt Ideal) (tileBuf m c) := by
  have hN : t.val < 128 := lt_of_lt_of_eq t.isLt (show cfg0.N = 128 from N_0)
  have h63 : t.val % 64 = 63 := (flush0_3 t).mp hf
  obtain ⟨-, -, -, -, -, -, e0, e1⟩ := idx_facts t
  show (cfg0.win 3).cut (grid0.coords t) ((dats m 0 c).after 3 t) = _
  rw [after0_3]
  show (outsAt0 m c t.val t.isLt : S256x128.Idx → EReal) = fun y => tileSums m c (((cfg0.win 3).blk t).view.emb y)
  funext y
  obtain ⟨r, l, rfl⟩ : ∃ (r : Fin 256) (l : Fin 128), y = ix2 r l := ⟨y 0, y 1, eq_ix2 y⟩
  have hr : r.val < 256 := r.isLt
  rw [acc_apply m hL c t.val t.isLt r l]
  unfold tileSums
  have ea : ((((cfg0.win 3).blk t).view.emb (ix2 r l)) 0).val = t.val / 64 * 256 + r.val := by
    show win0_3.index t (0 : Fin 2) * 256 + 1 * r.val = _; omega
  have eb : ((((cfg0.win 3).blk t).view.emb (ix2 r l)) 1).val = l.val := by
    show win0_3.index t (1 : Fin 2) * 128 + 1 * l.val = _; omega
  rw [ea, eb, h63, show (t.val / 64 * 256 + r.val) / 256 = t.val / 64 by omega,
    show (t.val / 64 * 256 + r.val) % 256 = r.val by omega]

/-- Every entry of the array is under some core's write-back. -/
theorem covered (c : Dev nD) (i : S512x128.Idx) :
    ∃ t : Fin cfg0.N, (cfg0.win 3).flush t = true ∧ i ∈ ((cfg0.win 3).blk t).view.set := by
  have h0 : (i 0).val < 512 := (i 0).isLt
  have h1 : (i 1).val < 128 := (i 1).isLt
  have hlt : (i 0).val / 256 * 64 + 63 < cfg0.N := by rw [show cfg0.N = 128 from N_0]; omega
  refine ⟨⟨(i 0).val / 256 * 64 + 63, hlt⟩, (flush0_3 _).mpr (by show ((i 0).val / 256 * 64 + 63) % 64 = 63; omega), ?_⟩
  obtain ⟨-, -, -, -, -, -, e0, e1⟩ := idx_facts ⟨(i 0).val / 256 * 64 + 63, hlt⟩
  have e0' : win0_3.index ⟨(i 0).val / 256 * 64 + 63, hlt⟩ (0 : Fin 2) = ((i 0).val / 256 * 64 + 63) / 64 := e0
  show i ∈ ((View.whole main_v4).slice (win0_3.rect ⟨(i 0).val / 256 * 64 + 63, hlt⟩)).set
  rw [View.set_slice_whole, Rect.mem_set_unit]
  intro a
  match a with
  | ⟨0, _⟩ =>
    show win0_3.index ⟨(i 0).val / 256 * 64 + 63, hlt⟩ (0 : Fin 2) * 256 ≤ (i 0).val
      ∧ (i 0).val < win0_3.index ⟨(i 0).val / 256 * 64 + 63, hlt⟩ (0 : Fin 2) * 256 + 256
    omega
  | ⟨1, _⟩ =>
    show win0_3.index ⟨(i 0).val / 256 * 64 + 63, hlt⟩ (1 : Fin 2) * 128 ≤ (i 1).val
      ∧ (i 1).val < win0_3.index ⟨(i 0).val / 256 * 64 + 63, hlt⟩ (1 : Fin 2) * 128 + 128
    omega

/-- So the array ends holding `tileSums`. -/
theorem final (hL : ∀ (c : Dev nD) (i : S64x65536.Idx), InRange (labels m c i)) (c : Dev nD) :
    (dats m 0 c).arrAt 3 cfg0.N = tileBuf m c :=
  (dats m 0 c).arrAt_eq_of_cover 3 (tileBuf m c) (fun t hf => flushed_eq m hL c t hf) (covered c)

/-! ## The host line after the region, and the run -/

/-- What the program returns: the sum of the array's entries from zero. -/
def total (c : Dev nD) : EReal := Ideal.ofBits .f32 0x00000000#32 + ∑ j : S512x128.Idx, tileSums m c j

/-- The result buffer after the host lines that follow the region: the total, at its one index. -/
theorem tail_eq (hL : ∀ (c : Dev nD) (i : S64x65536.Idx), InRange (labels m c i)) (c : Dev nD) :
    Pipeline.afterTail₀ cfgs (dats m) 0 (V0 m) [hostOps1] c main_v5 = fun _ => total m c := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = tileBuf m c :=
    (Pipeline.withArrays_arr spec0 launch0.win.arr_inj c _ _ 3).trans (final m hL c)
  rw [e]
  funext i
  simp only [Host.reduceAdd, Ideal.hostReduceAdd_def]
  exact Ideal.hostReduceAdd_total reducesTo_S512x128_S_d0_1 (fun b => b.elim0) (tileSums m c) _ i

/-- The total is the sum of the terms of all 4194304 samples: every sample is in exactly one tile, at one entry. -/
theorem total_eq (c : Dev nD) : total m c = ∑ s ∈ Finset.range 4194304, termOf m c s := by
  unfold total
  rw [Ideal.ofBits_zero_f32, zero_add, sum_idx2, ← Cert.SumLayout.sum_tiles (fun s => termOf m c s)]
  refine Finset.sum_congr rfl fun R _ => Finset.sum_congr rfl fun l _ => ?_
  unfold tileSums
  rw [Finset.sum_range]
  refine Finset.sum_congr rfl fun i _ => ?_
  show termOf m c ((R.val / 256 * 64 + i.val) * 32768 + (R.val % 256 * 128 + l.val))
    = termOf m c ((R.val / 256 * 64 + i.val) * 32768 + R.val % 256 * 128 + l.val)
  rw [Nat.add_assoc]

/-- THE RUN, READ. Under in-range labels every weakly fair execution of the program terminates with the result at the
    total and the arguments unchanged. -/
theorem run (hL : ∀ (c : Dev nD) (i : S64x65536.Idx), InRange (labels m c i)) :
    θ_run defs (onTc (τ := τ) (main (F := Ideal))) ⟨m, fun _ => 0, ρ⟩ fun r => ∀ c : Dev nD,
      r.2.mem ((c.tc : Thread nD τ).loc main_v5) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v5 (Pipeline.mem_restRefs_of main_v5 (by decide) (by decide))).trans (tail_eq m hL c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Total

end
-- ==== Proof.RefValue.lean ====
/-
  What the reference computes, at the ideal instance: the sum of all samples' terms.

  The reference takes the log-softmax of the logits along the class axis (the row maximum as a fold of max from −∞,
  maxed once more with −∞; the shifted exponentials summed from zero), picks each sample's log-probability at its
  label with a gather (the label first wrapped if negative, the pick replaced by NaN if the wrapped label is outside
  0 … 3, the gather's own start index clamped into 0 … 3), negates it, multiplies by [label ≠ 3] + count and adds
  everything up from zero. For a label in range the wrap, the fill and the clamp do nothing, and the pick is the
  log-probability of the label's class: the sample's term.
-/
import proofs.«418320_j54924041781384_3_alg».proof.Proof.RefRead
import proofs.«418320_j54924041781384_3_alg».proof.Proof.FocalTerm
import proofs.«418320_j54924041781384_3_alg».proof.Proof.SumLayout
import Idealize.ShloMosaic.Lib.ValueIdx
import Idealize.ShloMosaic.Lib.Affine
import Idealize.ShloMosaic.Lib.Pipeline.Value
import Idealize.ShloMosaic.PureOps.Ideal.Laws
import Idealize.ShloMosaic.PureOps.Reduce
import Mathlib.Data.Finset.Fold

set_option maxRecDepth 16384

noncomputable section

open scoped BigOperators

namespace Cert.ReferenceIdeal.RefTotal

open Cert.ReferenceIdeal Cert.ReferenceIdeal.Gen Cert.ReferenceIdeal.Read Idealize.ShloMosaic Idealize.ShloMosaic.ValueIdx Cert.Focal

variable (x0 : FVec Ideal S64x65536x4 .f32) (x1 x2 : IVec S64x65536 32)

/-- The four logits of the sample at row `b`, column `n`. -/
abbrev row (b : Fin 64) (n : Fin 65536) : Fin 4 → EReal := fun k => x0 (ix3 b n k)

/-! ## The log-softmax -/

/-- The row maximum the reference subtracts is the sample's `rowMax`: a fold of max from −∞ is at least −∞, so the
    second max with −∞ changes nothing. -/
theorem max_apply (b : Fin 64) (n : Fin 65536) : val_main_call0_v2 (F := Ideal) x0 (ix2 b n) = rowMax (row x0 b n) := by
  have hR : S64x65536x4.Reduces [2] S64x65536 := by decide
  have e : x0 ∘ hR.lift (ix2 b n) = row x0 b n :=
    funext fun k => congrArg x0 (funext fun a => Fin.ext (by match a with | ⟨0, _⟩ => rfl | ⟨1, _⟩ => rfl | ⟨2, _⟩ => rfl))
  rw [val_main_call0_v2_apply, val_main_call0_v1_apply, val_main_call0_cst_0_apply]
  unfold val_main_call0_v0
  rw [Host.reduce_eq_fold_single FloatOps.maximumf x0 _ reducesTo_S64x65536x4_S64x65536_d2 hR h_S_ (ix2 b n), e]
  show max (Ideal.ofBits .f32 0xFF800000#32)
      ((Finset.univ : Finset (Fin 4)).fold max (Ideal.ofBits .f32 0xFF800000#32) (row x0 b n)) = _
  exact max_eq_right ((Finset.le_fold_max _).mpr (Or.inl le_rfl))

/-- The logits shifted by the row maximum. -/
theorem shift_apply (b : Fin 64) (n : Fin 65536) (k : Fin 4) :
    val_main_call0_v5 (F := Ideal) x0 (ix3 b n k) = x0 (ix3 b n k) - rowMax (row x0 b n) := by
  rw [val_main_call0_v5_apply, val_main_call0_v4_apply, val_main_call0_v3_apply,
    show idx_main_call0_v3 (idx_main_call0_v4 (ix3 b n k)) = ix2 b n from
      funext fun a => Fin.ext (by match a with | ⟨0, _⟩ => rfl | ⟨1, _⟩ => rfl),
    max_apply]
  rfl

/-- The sum of the shifted exponentials, from zero. -/
theorem sumExp_apply (b : Fin 64) (n : Fin 65536) : val_main_call0_v7 (F := Ideal) x0 (ix2 b n) = sumExp (row x0 b n) := by
  rw [val_main_call0_v7_apply, val_main_call0_cst_1_apply]
  show Ideal.ofBits .f32 0x00000000#32 + _ = _
  rw [Ideal.ofBits_zero_f32, zero_add]
  unfold sumExp
  refine Finset.sum_congr rfl fun k _ => ?_
  rw [show idx_main_call0_v7 (ix2 b n) k = ix3 b n k from
      funext fun a => Fin.ext (by match a with | ⟨0, _⟩ => rfl | ⟨1, _⟩ => rfl | ⟨2, _⟩ => rfl),
    val_main_call0_v6_apply, shift_apply]
  rfl

/-- The reference's log-softmax at class `k` of the sample at (b, n) is the sample's log-probability of `k`. -/
theorem logp_apply (b : Fin 64) (n : Fin 65536) (k : Fin 4) :
    val_main_v0 (F := Ideal) x0 (ix3 b n k) = logProb (row x0 b n) k := by
  rw [val_main_v0_apply, shift_apply, val_main_call0_v10_apply, val_main_call0_v9_apply, val_main_call0_v8_apply,
    show idx_main_call0_v8 (idx_main_call0_v10 (ix3 b n k)) = ix2 b n from
      funext fun a => Fin.ext (by match a with | ⟨0, _⟩ => rfl | ⟨1, _⟩ => rfl),
    sumExp_apply]
  rfl

/-! ## The pick at the label -/

/-- An in-range label read signed is between 0 and 3, and read unsigned it is the same number. -/
theorem inRange_bounds {lab : BitVec 32} (h : InRange lab) : 0 ≤ lab.toInt ∧ lab.toInt < 4 ∧ lab.toInt = (lab.toNat : Int) := by
  obtain ⟨h1, h2⟩ := h
  have a : (0#32 : BitVec 32).toInt ≤ lab.toInt := IntOp.cmpi_sge.mp h1
  have c : lab.toInt < (4#32 : BitVec 32).toInt := IntOp.cmpi_slt.mp h2
  rw [show (0#32 : BitVec 32).toInt = 0 by decide] at a
  rw [show (4#32 : BitVec 32).toInt = 4 by decide] at c
  refine ⟨a, c, ?_⟩
  have hlt : lab.toNat < 2 ^ 32 := lab.isLt
  rw [BitVec.toInt_eq_toNat_cond] at a c ⊢
  split <;> rename_i hc
  · rfl
  · rw [if_neg hc] at a; omega

/-- The label of the sample at (b, n), as the one-column array the gather reads it from. -/
theorem col_apply (b : Fin 64) (n : Fin 65536) : val_main_v1 (F := Ideal) x1 (ix3 b n (0 : Fin 1)) = x1 (ix2 b n) := by
  rw [val_main_v1_apply]
  exact congrArg x1 (funext fun a => Fin.ext (by match a with | ⟨0, _⟩ => rfl | ⟨1, _⟩ => rfl))

/-- An in-range label is not wrapped. -/
theorem wrapped_apply (b : Fin 64) (n : Fin 65536) (hlab : InRange (x1 (ix2 b n))) :
    val_main_call1_v4 (F := Ideal) x1 (ix3 b n (0 : Fin 1)) = x1 (ix2 b n) := by
  obtain ⟨h0, -, -⟩ := inRange_bounds hlab
  rw [val_main_call1_v4_apply, val_main_call1_v1_apply, val_main_call1_v0_apply, val_main_call1_c_apply, col_apply]
  have hn : IntOp.cmpi .slt (x1 (ix2 b n)) 0#32 = 0#1 := eq_zero_of_ne_one fun h => by
    have := IntOp.cmpi_slt.mp h
    rw [show (0#32 : BitVec 32).toInt = 0 by decide] at this
    omega
  rw [hn, select_zero]

/-- The start index the gather reads for the sample at (b, n). -/
theorem start_apply (b : Fin 64) (n : Fin 65536) (hlab : InRange (x1 (ix2 b n))) :
    val_main_call1_v5 (F := Ideal) x1 (ix4 b n (0 : Fin 1) (0 : Fin 1)) = x1 (ix2 b n) := by
  have hb : b.val < 64 := b.isLt
  have hn : n.val < 65536 := n.isLt
  rw [val_main_call1_v5_apply,
    show idx_main_call1_v5 (ix4 b n (0 : Fin 1) (0 : Fin 1)) = ix3 b n (0 : Fin 1) from
      funext fun a => Fin.ext (by
        match a with
        | ⟨0, _⟩ => show (((b.val * 65536 + n.val) * 1 + 0) * 1 + 0) / 65536 = b.val; omega
        | ⟨1, _⟩ => show (((b.val * 65536 + n.val) * 1 + 0) * 1 + 0) / 1 % 65536 = n.val; omega
        | ⟨2, _⟩ => rfl),
    wrapped_apply x1 b n hlab]

/-- A fold over a one-element range is one application of the operation. -/
theorem fold_fin_one {α : Type} (op : α → α → α) [Std.Commutative op] [Std.Associative op] (b : α) (f : Fin 1 → α) :
    (Finset.univ : Finset (Fin 1)).fold op b f = op (f 0) b := by
  rw [show (Finset.univ : Finset (Fin 1)) = {0} from rfl, Finset.fold_singleton]

/-- The in-bounds test of an in-range label answers 1. -/
theorem inb_apply (b : Fin 64) (n : Fin 65536) (hlab : InRange (x1 (ix2 b n))) :
    val_main_call1_v12 (F := Ideal) x1 (ix3 b n (0 : Fin 1)) = 1#1 := by
  obtain ⟨-, h4, -⟩ := inRange_bounds hlab
  have hR : S64x65536x1x1.Reduces [3] S64x65536x1 := by decide
  have e : hR.lift (ix3 b n (0 : Fin 1)) (0 : Fin 1) = ix4 b n (0 : Fin 1) (0 : Fin 1) :=
    funext fun a => Fin.ext (by match a with | ⟨0, _⟩ => rfl | ⟨1, _⟩ => rfl | ⟨2, _⟩ => rfl | ⟨3, _⟩ => rfl)
  unfold val_main_call1_v12
  rw [Host.reduce_eq_fold_single IntOp.andi _ _ reducesTo_S64x65536x1x1_S64x65536x1_d3 hR h_S_ (ix3 b n (0 : Fin 1))]
  show (Finset.univ : Finset (Fin 1)).fold IntOp.andi (val_main_call1_c_3 (F := Ideal) (Shape.Idx.first h_S_))
      (val_main_call1_v11 (F := Ideal) x1 ∘ hR.lift (ix3 b n (0 : Fin 1))) = 1#1
  refine (fold_fin_one IntOp.andi _ _).trans ?_
  show IntOp.andi (val_main_call1_v11 (F := Ideal) x1 (hR.lift (ix3 b n (0 : Fin 1)) (0 : Fin 1))) 1#1 = 1#1
  rw [e, val_main_call1_v11_apply, val_main_call1_v7_apply, val_main_call1_v10_apply, start_apply x1 b n hlab,
    val_main_call1_v6_apply, val_main_call1_c_2_apply, val_main_call1_v9_apply, val_main_call1_v8_apply, val_main_call1_c_1_apply]
  have h3 : IntOp.cmpi .sle (x1 (ix2 b n)) 3#32 = 1#1 := IntOp.cmpi_sle.mpr (by
    rw [show (3#32 : BitVec 32).toInt = 3 by decide]; omega)
  rw [hlab.1, h3]
  decide

/-- The gather's batch coordinate on the operand's row axis is the result index's row. -/
theorem batch_row (j : S64x65536x1.Idx) : GatherDims.batchCoord gather_S64x65536x4_S64x65536x1x1_S64x65536x1_n_2_01_01_2_3_111 j (0 : Fin 3) = (j 0).val := by
  unfold GatherDims.batchCoord
  rw [dif_pos (by decide)]
  unfold GatherDims.siCoord
  simp only [Fin.val_cast, Fin.coe_cast]
  rfl

/-- The gather's batch coordinate on the operand's column axis is the result index's column. -/
theorem batch_col (j : S64x65536x1.Idx) : GatherDims.batchCoord gather_S64x65536x4_S64x65536x1x1_S64x65536x1_n_2_01_01_2_3_111 j (1 : Fin 3) = (j 1).val := by
  unfold GatherDims.batchCoord
  rw [dif_pos (by decide)]
  unfold GatherDims.siCoord
  simp only [Fin.val_cast, Fin.coe_cast]
  rfl

/-- THE PICK. For an in-range label the gather reads the log-softmax at the label's class. -/
theorem pick_apply (b : Fin 64) (n : Fin 65536) (hlab : InRange (x1 (ix2 b n))) :
    val_main_call1_v13 (F := Ideal) x0 x1 (ix3 b n (0 : Fin 1)) = logProb (row x0 b n) (cls (x1 (ix2 b n))) := by
  obtain ⟨h0, h4, hnat⟩ := inRange_bounds hlab
  unfold val_main_call1_v13 Host.gather
  have e : gather_S64x65536x4_S64x65536x1x1_S64x65536x1_n_2_01_01_2_3_111.operandIdx (ix3 b n (0 : Fin 1)) (val_main_call1_v5 (F := Ideal) x1)
      = ix3 b n (cls (x1 (ix2 b n))) := by
    funext a
    apply Fin.ext
    match a with
    | ⟨0, _⟩ =>
      show GatherDims.start gather_S64x65536x4_S64x65536x1x1_S64x65536x1_n_2_01_01_2_3_111 _ _ (0 : Fin 3) + GatherDims.batchCoord gather_S64x65536x4_S64x65536x1x1_S64x65536x1_n_2_01_01_2_3_111 _ (0 : Fin 3) + GatherDims.offCoord gather_S64x65536x4_S64x65536x1x1_S64x65536x1_n_2_01_01_2_3_111 _ (0 : Fin 3) = b.val
      rw [GatherDims.start_batching _ _ _ _ (by decide), GatherDims.offCoord_eq_zero _ _ _ (by decide), batch_row]
      show 0 + b.val + 0 = b.val
      omega
    | ⟨1, _⟩ =>
      show GatherDims.start gather_S64x65536x4_S64x65536x1x1_S64x65536x1_n_2_01_01_2_3_111 _ _ (1 : Fin 3) + GatherDims.batchCoord gather_S64x65536x4_S64x65536x1x1_S64x65536x1_n_2_01_01_2_3_111 _ (1 : Fin 3) + GatherDims.offCoord gather_S64x65536x4_S64x65536x1x1_S64x65536x1_n_2_01_01_2_3_111 _ (1 : Fin 3) = n.val
      rw [GatherDims.start_batching _ _ _ _ (by decide), GatherDims.offCoord_eq_zero _ _ _ (by decide), batch_col]
      show 0 + n.val + 0 = n.val
      omega
    | ⟨2, _⟩ =>
      show GatherDims.start gather_S64x65536x4_S64x65536x1x1_S64x65536x1_n_2_01_01_2_3_111 _ _ (2 : Fin 3) + GatherDims.batchCoord gather_S64x65536x4_S64x65536x1x1_S64x65536x1_n_2_01_01_2_3_111 _ (2 : Fin 3) + GatherDims.offCoord gather_S64x65536x4_S64x65536x1x1_S64x65536x1_n_2_01_01_2_3_111 _ (2 : Fin 3)
        = (x1 (ix2 b n)).toNat % 4
      rw [GatherDims.batchCoord_eq_zero _ _ _ (by decide), GatherDims.offCoord_eq_zero _ _ _ (by decide)]
      unfold GatherDims.start
      rw [dif_pos (by decide)]
      have hsi : gather_S64x65536x4_S64x65536x1x1_S64x65536x1_n_2_01_01_2_3_111.siIdx (ix3 b n (0 : Fin 1))
          ⟨List.idxOf (2 : Fin 3) gather_S64x65536x4_S64x65536x1x1_S64x65536x1_n_2_01_01_2_3_111.startIndexMap,
            List.idxOf_lt_length_iff.2 (by decide)⟩ = ix4 b n (0 : Fin 1) (0 : Fin 1) := by
        funext d; refine Fin.ext ?_
        match d with
        | ⟨0, _⟩ => rfl
        | ⟨1, _⟩ => rfl
        | ⟨2, _⟩ => rfl
        | ⟨3, _⟩ => rfl
      rw [hsi, start_apply x1 b n hlab]
      show min (x1 (ix2 b n)).toInt.toNat (4 - 1) + 0 + 0 = (x1 (ix2 b n)).toNat % 4
      omega
  rw [e]
  exact logp_apply x0 b n _

/-! ## The per-sample value and the total -/

/-- The product the reference sums, at the sample at (b, n) with an in-range label: the sample's term. -/
theorem sample_apply (b : Fin 64) (n : Fin 65536) (hlab : InRange (x1 (ix2 b n))) :
    val_main_v10 (F := Ideal) x0 x1 x2 (ix2 b n) = term (row x0 b n) (x1 (ix2 b n)) (x2 (ix2 b n)) := by
  have hb : b.val < 64 := b.isLt
  have hn : n.val < 65536 := n.isLt
  rw [val_main_v10_apply, val_main_v4_apply, val_main_v3_apply,
    show idx_main_v3 (ix2 b n) = ix3 b n (0 : Fin 1) from
      funext fun a => Fin.ext (by
        match a with
        | ⟨0, _⟩ => show (b.val * 65536 + n.val) / 65536 = b.val; omega
        | ⟨1, _⟩ => show (b.val * 65536 + n.val) / 1 % 65536 = n.val; omega
        | ⟨2, _⟩ => rfl),
    val_main_v2_apply, inb_apply x1 b n hlab, select_one, pick_apply x0 x1 b n hlab,
    val_main_v9_apply, val_main_v7_apply, val_main_v6_apply, val_main_v5_apply, val_main_c_apply, val_main_v8_apply]
  rfl

/-- The term of sample `s` = b·65536 + n, read off the argument arrays at the sample's place. -/
abbrev termAt (s : ℕ) : EReal :=
  term (fun k => x0 (ix3 (⟨s / 65536 % 64, Nat.mod_lt _ (by decide)⟩ : Fin 64) (⟨s % 65536, Nat.mod_lt _ (by decide)⟩ : Fin 65536) k))
    (x1 (ix2 (⟨s / 65536 % 64, Nat.mod_lt _ (by decide)⟩ : Fin 64) (⟨s % 65536, Nat.mod_lt _ (by decide)⟩ : Fin 65536)))
    (x2 (ix2 (⟨s / 65536 % 64, Nat.mod_lt _ (by decide)⟩ : Fin 64) (⟨s % 65536, Nat.mod_lt _ (by decide)⟩ : Fin 65536)))

/-- THE REFERENCE'S RESULT: with every label in range, the sum of the terms of all 4194304 samples. -/
theorem total_apply (hL : ∀ i : S64x65536.Idx, InRange (x1 i)) (i : S_.Idx) :
    val_main_v11 (F := Ideal) x0 x1 x2 i = ∑ s ∈ Finset.range 4194304, termAt x0 x1 x2 s := by
  rw [val_main_v11_apply, val_main_cst_apply]
  show Ideal.ofBits .f32 0x00000000#32 + _ = _
  rw [Ideal.ofBits_zero_f32, zero_add, sum_idx2, ← Cert.SumLayout.sum_rows (fun s => termAt x0 x1 x2 s)]
  refine Finset.sum_congr rfl fun b _ => Finset.sum_congr rfl fun n _ => ?_
  have hb : b.val < 64 := b.isLt
  have hn : n.val < 65536 := n.isLt
  rw [sample_apply x0 x1 x2 b n (hL _)]
  have key : ∀ (b' : Fin 64) (n' : Fin 65536), b' = b → n' = n →
      term (row x0 b n) (x1 (ix2 b n)) (x2 (ix2 b n))
        = term (fun k => x0 (ix3 b' n' k)) (x1 (ix2 b' n')) (x2 (ix2 b' n')) := by
    rintro _ _ rfl rfl; rfl
  exact key _ _ (Fin.ext (by show (b.val * 65536 + n.val) / 65536 % 64 = b.val; omega))
    (Fin.ext (by show (b.val * 65536 + n.val) % 65536 = n.val; omega))

end Cert.ReferenceIdeal.RefTotal

end
-- ==== Proof.lean ====
/-
  The focal-loss sum: the kernel's tiled accumulation and the reference's whole-array sum are one number.

  Per sample — four logits, a label, a count — the loss term is −(log-softmax of the logits at the label's class) ·
  ([label ≠ 3] + count) (Proof/FocalTerm.lean). Under the precondition every label is in 0 … 3 (Proof/LabelRange.lean).
  The kernel computes each sample's term along the lanes of a tile, with the label's log-probability picked by a
  one-hot product, adds 64 tiles per core into a [256, 128] block, and sums the two cores' blocks on the host
  (Proof/KernelBody.lean, Proof/KernelSum.lean); the reference picks the log-probability by a gather whose wrap, fill
  and clamp do nothing on an in-range label, and sums all 4194304 products (Proof/RefValue.lean). Both are the sum of
  the same 4194304 terms of the extended reals, counted in two orders (Proof/SumLayout.lean): addition there is
  commutative and associative, so the order does not matter, and no finiteness is used.
-/
import proofs.«418320_j54924041781384_3_alg».proof.Defs
import proofs.«418320_j54924041781384_3_alg».proof.Proof.Gen.Kernel
import proofs.«418320_j54924041781384_3_alg».proof.Proof.Gen.Kernel.Skeleton
import proofs.«418320_j54924041781384_3_alg».proof.Proof.Gen.Kernel.Launch
import proofs.«418320_j54924041781384_3_alg».proof.Proof.Gen.Kernel.Points
import proofs.«418320_j54924041781384_3_alg».proof.Proof.Gen.Kernel.Frame
import proofs.«418320_j54924041781384_3_alg».proof.Proof.Gen.KernelIdeal
import proofs.«418320_j54924041781384_3_alg».proof.Proof.Gen.KernelIdeal.Skeleton
import proofs.«418320_j54924041781384_3_alg».proof.Proof.Gen.KernelIdeal.Launch
import proofs.«418320_j54924041781384_3_alg».proof.Proof.Gen.KernelIdeal.Points
import proofs.«418320_j54924041781384_3_alg».proof.Proof.Gen.KernelIdeal.Frame
import proofs.«418320_j54924041781384_3_alg».proof.Proof.Gen.ReferenceIdeal
import proofs.«418320_j54924041781384_3_alg».proof.Proof.Gen.Pre_finite_inputs
import proofs.«418320_j54924041781384_3_alg».proof.Proof.RefRun
import proofs.«418320_j54924041781384_3_alg».proof.Proof.RefRead
import proofs.«418320_j54924041781384_3_alg».proof.Proof.LabelRange
import proofs.«418320_j54924041781384_3_alg».proof.Proof.KernelSum
import proofs.«418320_j54924041781384_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: it runs, and writes none of its arguments. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals, from memories that agree on the arguments and satisfy the precondition, both programs end
    with the sum of all samples' terms: the kernel's total is that sum tile by tile, the reference's row by row. -/
theorem algebraic : Cert.algebraic_KernelIdeal_ReferenceIdeal := by
  intro m ρ m' ρ' hpre hagree
  have hL : ∀ (c : Dev Cert.KernelIdeal.nD) (i : Cert.KernelIdeal.S64x65536.Idx),
      Cert.Focal.InRange (Cert.KernelIdeal.Total.labels m c i) :=
    fun c i => Cert.LabelRange.labels_inRange _ _ _ (hpre c) i
  refine ⟨fun c => (fun _ => Cert.KernelIdeal.Total.total m c), Cert.KernelIdeal.Total.run m ρ hL, ?_⟩
  refine (θ_run Cert.ReferenceIdeal.defs _ _).mono (fun _ h c => ⟨(h c).1.trans ?_, (h c).2⟩)
    (Cert.ReferenceIdeal.Value.run (F := Ideal) m' ρ')
  have hL' : ∀ i : Cert.ReferenceIdeal.S64x65536.Idx,
      Cert.Focal.InRange ((m' ((c.tc : Thread Cert.ReferenceIdeal.nD Cert.ReferenceIdeal.τ).loc Cert.ReferenceIdeal.main_arg1) : Cert.ReferenceIdeal.S64x65536.Idx → BitVec 32) i) := by
    rw [(hagree c).2.1]; exact hL c
  rw [Cert.ReferenceIdeal.Read.val_main_v11_eq]
  funext i
  show _ = Cert.KernelIdeal.Total.total m c
  rw [Cert.ReferenceIdeal.RefTotal.total_apply _ _ _ hL' i, Cert.KernelIdeal.Total.total_eq,
    (hagree c).1, (hagree c).2.1, (hagree c).2.2]
  exact Finset.sum_congr rfl fun s _ => rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
